-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x6400000 : Shape := ⟨2, ![2, 6400000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel

variable [Facts]

def fn {F : FTy → Type} [FloatOps F] (main_arg0 : FVec F S100000x3 .f32) (main_arg1 : IVec S2x6400000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  main_v3
-- ==== Kernel.lean ====
abbrev S100000x3 : Shape := ⟨2, ![100000, 3]⟩
abbrev S2x6400000 : Shape := ⟨2, ![2, 6400000]⟩
abbrev S16 : Shape := ⟨1, ![16]⟩
abbrev S1x16 : Shape := ⟨2, ![1, 16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S6400000x16 : Shape := ⟨2, ![6400000, 16]⟩
abbrev S12800x3 : Shape := ⟨2, ![12800, 3]⟩
abbrev S12800x16 : Shape := ⟨2, ![12800, 16]⟩
abbrev S12800 : Shape := ⟨1, ![12800]⟩
abbrev S12800x1 : Shape := ⟨2, ![12800, 1]⟩
abbrev S100000x16 : Shape := ⟨2, ![100000, 16]⟩

abbrev nBuf : Space → Nat
  | .hbm => 34
  | .vmem => 5
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S16, .f32⟩
  | .hbm, ⟨3, _⟩ => ⟨S1x16, .f32⟩
  | .hbm, ⟨4, _⟩ => ⟨S1x6400000, .i32⟩
  | .hbm, ⟨5, _⟩ => ⟨S6400000, .i32⟩
  | .hbm, ⟨6, _⟩ => ⟨S_, .i32⟩
  | .hbm, ⟨7, _⟩ => ⟨S6400000, .i32⟩
  | .hbm, ⟨8, _⟩ => ⟨S6400000, .i1⟩
  | .hbm, ⟨9, _⟩ => ⟨S_, .i32⟩
  | .hbm, ⟨10, _⟩ => ⟨S6400000, .i32⟩
  | .hbm, ⟨11, _⟩ => ⟨S6400000, .i32⟩
  | .hbm, ⟨12, _⟩ => ⟨S6400000, .i32⟩
  | .hbm, ⟨13, _⟩ => ⟨S6400000x1, .i32⟩
  | .hbm, ⟨14, _⟩ => ⟨S6400000x3, .f32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x3, .f32⟩
  | .hbm, ⟨26, _⟩ => ⟨S6400000x3, .f32⟩
  | .hbm, ⟨27, _⟩ => ⟨S6400000x16, .f32⟩
  | .hbm, ⟨28, _⟩ => ⟨S1x6400000, .i32⟩
  | .hbm, ⟨29, _⟩ => ⟨S6400000, .i32⟩
  | .hbm, ⟨30, _⟩ => ⟨S_, .f32⟩
  | .hbm, ⟨31, _⟩ => ⟨S100000x16, .f32⟩
  | .hbm, ⟨32, _⟩ => ⟨S6400000x1, .i32⟩
  | .hbm, ⟨33, _⟩ => ⟨S100000x16, .f32⟩
  | .local _ .vmem, ⟨0, _⟩ => ⟨S12800x3, .f32⟩
  | .local _ .vmem, ⟨1, _⟩ => ⟨S12800x3, .f32⟩
  | .local _ .vmem, ⟨2, _⟩ => ⟨S1x16, .f32⟩
  | .local _ .vmem, ⟨3, _⟩ => ⟨S12800x16, .f32⟩
  | .local _ .vmem, ⟨4, _⟩ => ⟨S12800x16, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12800x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16_S1x16_1 : S16.BroadcastsInDim S1x16 (![1] : Fin 1 → Fin S1x16.rank)
  slices_S2x6400000_S1x6400000_0_0 : S2x6400000.Slices ![0, 0] S1x6400000
  shapeCasts_S1x6400000_S6400000 : S1x6400000.ShapeCasts S6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S2x6400000_S1x6400000_1_0 : S2x6400000.Slices ![1, 0] S1x6400000
  inb_S12800x3_S12800x3_0_0 : ∀ a, (![0, 0] : Fin 2 → Nat) a + S12800x3.size a ≤ S12800x3.size a
  h_S12800x3 : 0 < S12800x3.numel
  shapeCasts_S12800x3_S12800x3 : S12800x3.ShapeCasts S12800x3
  reduces_S12800x3_S12800 : S12800x3.Reduces [1] S12800
  shapeCasts_S12800_S12800x1 : S12800.ShapeCasts S12800x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S12800x16 : S1x16.Broadcasts S12800x16
  broadcasts_S12800x1_S12800x16 : S12800x1.Broadcasts S12800x16
  inb_S12800x16_S12800x16_0_0 : ∀ a, (![0, 0] : Fin 2 → Nat) a + S12800x16.size a ≤ S12800x16.size a
  h_S12800x16 : 0 < S12800x16.numel
  bcast_S_S100000x16 : S_.BroadcastsInDim S100000x16 (![] : Fin 0 → Fin S100000x16.rank)
  gather_S100000x3_S6400000x1_S6400000x3_1_0_n_n_0_1_13_wf : GatherDims.WF S100000x3 S6400000x1 S6400000x3 [1] [0] [] [0] [] 1 ![1, 3]
  scatter_S100000x16_S6400000x1_S6400000x16_1_0_0_1_wf : ScatterDims.WF S100000x16 S6400000x1 S6400000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x3.size a ≤ S6400000x3.size a
  hwx0_0 : ∀ i : grid0.Coords, EltTy.bits .f32 = 32 ∨ (Rect.block (s := S6400000x3) S12800x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x16.size a ≤ S6400000x16.size a
  hwx0_2 : ∀ i : grid0.Coords, EltTy.bits .f32 = 32 ∨ (Rect.block (s := S6400000x16) S12800x16.size (cc0_transform_2 i) (hinb0_2 i)).WholeWords (EltTy.packing .f32)

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf

abbrev win0_0 : Pipeline.Window sig grid0 :=
  Pipeline.Window.ofSpec (Memref.whole main_v19) S12800x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S12800x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x6400000 : Shape := ⟨2, ![2, 6400000]⟩
abbrev S16 : Shape := ⟨1, ![16]⟩
abbrev S1x16 : Shape := ⟨2, ![1, 16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S6400000x16 : Shape := ⟨2, ![6400000, 16]⟩
abbrev S100000x16 : Shape := ⟨2, ![100000, 16]⟩

abbrev nBuf : Space → Nat
  | .hbm => 46
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S16, .f32⟩
  | .hbm, ⟨3, _⟩ => ⟨S1x16, .f32⟩
  | .hbm, ⟨4, _⟩ => ⟨S1x6400000, .i32⟩
  | .hbm, ⟨5, _⟩ => ⟨S6400000, .i32⟩
  | .hbm, ⟨6, _⟩ => ⟨S_, .i32⟩
  | .hbm, ⟨7, _⟩ => ⟨S6400000, .i32⟩
  | .hbm, ⟨8, _⟩ => ⟨S6400000, .i1⟩
  | .hbm, ⟨9, _⟩ => ⟨S_, .i32⟩
  | .hbm, ⟨10, _⟩ => ⟨S6400000, .i32⟩
  | .hbm, ⟨11, _⟩ => ⟨S6400000, .i32⟩
  | .hbm, ⟨12, _⟩ => ⟨S6400000, .i32⟩
  | .hbm, ⟨13, _⟩ => ⟨S6400000x1, .i32⟩
  | .hbm, ⟨14, _⟩ => ⟨S6400000x3, .f32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x3, .f32⟩
  | .hbm, ⟨26, _⟩ => ⟨S6400000x3, .f32⟩
  | .hbm, ⟨27, _⟩ => ⟨S6400000x3, .f32⟩
  | .hbm, ⟨28, _⟩ => ⟨S_, .f32⟩
  | .hbm, ⟨29, _⟩ => ⟨S6400000, .f32⟩
  | .hbm, ⟨30, _⟩ => ⟨S6400000, .f32⟩
  | .hbm, ⟨31, _⟩ => ⟨S6400000x1, .f32⟩
  | .hbm, ⟨32, _⟩ => ⟨S6400000x16, .f32⟩
  | .hbm, ⟨33, _⟩ => ⟨S6400000x16, .f32⟩
  | .hbm, ⟨34, _⟩ => ⟨S6400000x16, .f32⟩
  | .hbm, ⟨35, _⟩ => ⟨S6400000x16, .f32⟩
  | .hbm, ⟨36, _⟩ => ⟨S_, .f32⟩
  | .hbm, ⟨37, _⟩ => ⟨S6400000x16, .f32⟩
  | .hbm, ⟨38, _⟩ => ⟨S6400000x16, .f32⟩
  | .hbm, ⟨39, _⟩ => ⟨S6400000x16, .f32⟩
  | .hbm, ⟨40, _⟩ => ⟨S1x6400000, .i32⟩
  | .hbm, ⟨41, _⟩ => ⟨S6400000, .i32⟩
  | .hbm, ⟨42, _⟩ => ⟨S_, .f32⟩
  | .hbm, ⟨43, _⟩ => ⟨S100000x16, .f32⟩
  | .hbm, ⟨44, _⟩ => ⟨S6400000x1, .i32⟩
  | .hbm, ⟨45, _⟩ => ⟨S100000x16, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  slices_S2x6400000_S1x6400000_0_0 : S2x6400000.Slices ![0, 0] S1x6400000
  shapeCasts_S1x6400000_S6400000 : S1x6400000.ShapeCasts S6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S2x6400000_S1x6400000_1_0 : S2x6400000.Slices ![1, 0] S1x6400000
  reducesTo_S6400000x3_S6400000_d1 : S6400000x3.ReducesTo [1] S6400000
  h_S_ : 0 < S_.numel
  bcast_S1x16_S6400000x16_0_1 : S1x16.BroadcastsInDim S6400000x16 (![0, 1] : Fin 2 → Fin S6400000x16.rank)
  bcast_S6400000x1_S6400000x16_0_1 : S6400000x1.BroadcastsInDim S6400000x16 (![0, 1] : Fin 2 → Fin S6400000x16.rank)
  bcast_S_S6400000x16 : S_.BroadcastsInDim S6400000x16 (![] : Fin 0 → Fin S6400000x16.rank)
  bcast_S_S100000x16 : S_.BroadcastsInDim S100000x16 (![] : Fin 0 → Fin S100000x16.rank)
  gather_S100000x3_S6400000x1_S6400000x3_1_0_n_n_0_1_13_wf : GatherDims.WF S100000x3 S6400000x1 S6400000x3 [1] [0] [] [0] [] 1 ![1, 3]
  scatter_S100000x16_S6400000x1_S6400000x16_1_0_0_1_wf : ScatterDims.WF S100000x16 S6400000x1 S6400000x16 [1] [0] [0] 1

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf

class Facts : Prop extends Facts₀ where

variable [Facts]
-- ==== Proof.Rbf.lean ====
/-
  The radial-basis expansion that both programs compute, entry by entry, on the extended reals.
  For an edge `e` whose displacement is row `e` of `D` and a basis centre `s(b)`,

      out(e, b) = exp( (c · g) · g ),   g = s(b) − √(Σₖ D(e,k)·D(e,k)),

  with `c` the one scale literal the two programs share. The kernel multiplies left to right, `(c·g)·g`; the
  reference squares first, `c·(g·g)`: the same extended real, because multiplication there is associative.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The squared Euclidean length of row `e` of an `n × 3` array: the sum over the three coordinates of the square. -/
def rowSq {n : Nat} (D : (⟨2, ![n, 3]⟩ : Shape).Idx → EReal) (e : Fin n) : EReal :=
  ∑ k : Fin 3, D (ix2 e k) * D (ix2 e k)

/-- How far row `e`'s length is from basis centre `b`. -/
def gap {n : Nat} (D : (⟨2, ![n, 3]⟩ : Shape).Idx → EReal) (s : (⟨2, ![1, 16]⟩ : Shape).Idx → EReal)
    (e : Fin n) (b : Fin 16) : EReal :=
  s (ix2 (0 : Fin 1) b) - Ideal.sqrt (rowSq D e)

/-- One entry of the expansion: the Gaussian of the gap, the scale applied first. -/
def entry {n : Nat} (D : (⟨2, ![n, 3]⟩ : Shape).Idx → EReal) (s : (⟨2, ![1, 16]⟩ : Shape).Idx → EReal)
    (e : Fin n) (b : Fin 16) : EReal :=
  Ideal.exp (Ideal.ofBits .f32 0xC0E38E39#32 * gap D s e b * gap D s e b)

/-- The whole `n × 16` expansion. -/
def expand {n : Nat} (D : (⟨2, ![n, 3]⟩ : Shape).Idx → EReal) (s : (⟨2, ![1, 16]⟩ : Shape).Idx → EReal) :
    (⟨2, ![n, 16]⟩ : Shape).Idx → EReal :=
  fun i => entry D s (i 0) (i 1)

theorem expand_ix2 {n : Nat} (D : (⟨2, ![n, 3]⟩ : Shape).Idx → EReal) (s : (⟨2, ![1, 16]⟩ : Shape).Idx → EReal)
    (e : Fin n) (b : Fin 16) : expand D s (ix2 e b) = entry D s e b := rfl

/-- Squaring first and scaling after is the same entry: `c · (g · g) = (c · g) · g`. -/
theorem entry_eq_square_first {n : Nat} (D : (⟨2, ![n, 3]⟩ : Shape).Idx → EReal) (s : (⟨2, ![1, 16]⟩ : Shape).Idx → EReal)
    (e : Fin n) (b : Fin 16) :
    Ideal.exp (Ideal.ofBits .f32 0xC0E38E39#32 * (gap D s e b * gap D s e b)) = entry D s e b := by
  unfold entry
  rw [mul_assoc]

/-- An entry depends on its row of displacements and on its one centre only: two tables that agree on those, at
    whatever positions, have the same entry there. -/
theorem entry_congr {n n' : Nat} (D : (⟨2, ![n, 3]⟩ : Shape).Idx → EReal) (D' : (⟨2, ![n', 3]⟩ : Shape).Idx → EReal)
    (s s' : (⟨2, ![1, 16]⟩ : Shape).Idx → EReal) (e : Fin n) (e' : Fin n') (b b' : Fin 16)
    (hD : ∀ k : Fin 3, D (ix2 e k) = D' (ix2 e' k)) (hs : s (ix2 (0 : Fin 1) b) = s' (ix2 (0 : Fin 1) b')) :
    entry D s e b = entry D' s' e' b' := by
  unfold entry gap rowSq
  rw [hs]
  simp only [hD]

end Cert.Rbf

end
-- ==== Proof.Payload.lean ====
/-
  The kernel body's one stored value, read at an entry `(p, q)` of its 12800 × 16 block: from the 12800 × 3 block of
  displacements `x0` and the 1 × 16 row of centres `x1` it is the radial-basis entry of row `p` and centre `q`.
  The lane sum over the three coordinates is a three-term sum; the keep-dims column, its broadcast along the sixteen
  centres and the row broadcast of the centres are read at the entry.
-/
import proofs.«152730_j74706661146715_1_alg».proof.Proof.Gen.KernelIdeal.Skeleton
import proofs.«152730_j74706661146715_1_alg».proof.Proof.Rbf
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.KernelIdeal.Facts₀ Cert.Rbf

variable [Cert.KernelIdeal.Facts]

/-- A length-`a` vector recast as an `a × 1` column holds entry `p` in row `p`. -/
theorem column_apply {α : Type} (x : (⟨1, ![12800]⟩ : Shape).Idx → α)
    (h : (⟨1, ![12800]⟩ : Shape).ShapeCasts ⟨2, ![12800, 1]⟩) (p : Fin 12800) (u : Fin 1) :
    shapeCast ⟨2, ![12800, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `a × 1` column broadcast along sixteen lanes holds row `p`'s entry at every lane. -/
theorem column_broadcast_apply {α : Type} (v : (⟨2, ![12800, 1]⟩ : Shape).Idx → α)
    (h : (⟨2, ![12800, 1]⟩ : Shape).Broadcasts ⟨2, ![12800, 16]⟩) (p : Fin 12800) (q : Fin 16) :
    broadcastTo ⟨2, ![12800, 16]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The lane sum of the squared block at row `p` is the squared length of that row. -/
theorem lane_sum_apply (x0 : FVec Ideal S12800x3 .f32) (hacc : (0x00000000#32 : BitVec 32) = 0x00000000#32) (p : Fin 12800) :
    multiReduction .add [1] S12800 (mulf x0 x0) 0x00000000#32 reduces_S12800x3_S12800 (.inl rfl) hacc (ix1 p) = rowSq x0 p := by
  refine (Ideal.multiReduction_add_single (mulf x0 x0) 0x00000000#32 reduces_S12800x3_S12800 (.inl rfl) hacc (ix1 p)).trans ?_
  unfold rowSq
  refine Finset.sum_congr rfl fun k _ => ?_
  have hk : (reduces_S12800x3_S12800.lift (ix1 p) k : S12800x3.Idx) = ix2 p k := by
    funext a
    match a with
    | ⟨0, _⟩ => rfl
    | ⟨1, _⟩ => rfl
  rw [hk]
  rfl

/-- THE BODY AT AN ENTRY: the stored value at `(p, q)` is the radial-basis entry of row `p` of the displacement block
    and centre `q`. -/
theorem pay_apply (x0 : FVec Ideal S12800x3 .f32) (x1 : FVec Ideal S1x16 .f32) (p : Fin 12800) (q : Fin 16) :
    Gen.k0_pay1 (F := Ideal) x0 x1 (ix2 p q) = entry x0 x1 p q := by
  unfold Gen.k0_pay1
  have hg : subf (broadcastTo S12800x16 (shapeCast S1x16 x1 shapeCasts_S1x16_S1x16) broadcasts_S1x16_S12800x16)
      (broadcastTo S12800x16 (sqrt (shapeCast S12800x1 (multiReduction .add [1] S12800
        (mulf (shapeCast S12800x3 x0 shapeCasts_S12800x3_S12800x3) (shapeCast S12800x3 x0 shapeCasts_S12800x3_S12800x3))
        0x00000000#32 reduces_S12800x3_S12800 (.inl rfl) rfl) shapeCasts_S12800_S12800x1)) broadcasts_S12800x1_S12800x16)
      (ix2 p q) = gap x0 x1 p q := by
    rw [subf_apply, broadcastTo_1b_ab_apply, column_broadcast_apply, shapeCast_self, shapeCast_self]
    show x1 (ix2 (0 : Fin 1) q) - Ideal.sqrt (shapeCast S12800x1 _ shapeCasts_S12800_S12800x1 (ix2 p (0 : Fin 1))) = _
    rw [column_apply, lane_sum_apply]
    rfl
  show Ideal.exp (Ideal.ofBits .f32 0xC0E38E39#32 * _ * _) = _
  rw [hg]
  rfl

end Cert.KernelIdeal.Body

end
-- ==== Proof.KernelStages.lean ====
/-
  The host stages the two programs share, as named functions of the argument arrays: the row of sixteen basis centres;
  one row of the edge list with negative entries wrapped by the table's length, as a column of gather indices; the
  displacement of every edge (the difference of the two gathered endpoint positions); and the closing scatter-add of
  the per-edge rows into a zero table by the edge's second endpoint.
-/
import proofs.«152730_j74706661146715_1_alg».proof.Proof.Gen.KernelIdeal

noncomputable section

namespace Cert.KernelIdeal.Stages

open Cert.KernelIdeal Cert.KernelIdeal.Facts₀ Idealize.ShloMosaic

variable {F : FTy → Type} [FloatOps F]

/-- The sixteen basis centres, a literal table, as a `1 × 16` row. -/
def centres : (⟨S1x16, .f32⟩ : BufTy).Contents (Elt F) :=
  broadcastInDim S1x16 ![1] bcast_S16_S1x16_1 (fun i => FloatOps.ofBits .f32 (lit0 (S16.rowMajor i)))

/-- One row of the `2 × E` edge list as a vector of length `E`. -/
def edgeRow (off : Fin 2 → Nat) (hs : S2x6400000.Slices off S1x6400000) (idx : (⟨S2x6400000, .i32⟩ : BufTy).Contents (Elt F)) :
    (⟨S6400000, .i32⟩ : BufTy).Contents (Elt F) :=
  shapeCast S6400000 (extractStridedSlice S1x6400000 off idx hs) shapeCasts_S1x6400000_S6400000

/-- That row with every negative entry moved up by the table's length (Python's indexing from the end), as the
    `E × 1` column of start indices the gather takes. -/
def endpoints (off : Fin 2 → Nat) (hs : S2x6400000.Slices off S1x6400000) (idx : (⟨S2x6400000, .i32⟩ : BufTy).Contents (Elt F)) :
    (⟨S6400000x1, .i32⟩ : BufTy).Contents (Elt F) :=
  broadcastInDim S6400000x1 ![0] bcast_S6400000_S6400000x1_0
    (select (cmpi .slt (edgeRow off hs idx) (broadcastInDim S6400000 ![] bcast_S_S6400000 (constantI S_ 32 0#32)))
      (addi (edgeRow off hs idx) (broadcastInDim S6400000 ![] bcast_S_S6400000 (constantI S_ 32 100000#32)))
      (edgeRow off hs idx))

/-- The displacement of every edge: first endpoint's position minus second endpoint's, three coordinates a row. -/
def disp (R : (⟨S100000x3, .f32⟩ : BufTy).Contents (Elt F)) (idx : (⟨S2x6400000, .i32⟩ : BufTy).Contents (Elt F)) :
    (⟨S6400000x3, .f32⟩ : BufTy).Contents (Elt F) :=
  subf (Host.gather gather_S100000x3_S6400000x1_S6400000x3_1_0_n_n_0_1_13 R (endpoints ![0, 0] slices_S2x6400000_S1x6400000_0_0 idx))
    (Host.gather gather_S100000x3_S6400000x1_S6400000x3_1_0_n_n_0_1_13 R (endpoints ![1, 0] slices_S2x6400000_S1x6400000_1_0 idx))

/-- The closing segment sum: the per-edge rows `u` added into a zero `100000 × 16` table at the row the edge's
    second endpoint names. -/
def segSum (idx : (⟨S2x6400000, .i32⟩ : BufTy).Contents (Elt F)) (u : (⟨S6400000x16, .f32⟩ : BufTy).Contents (Elt F)) :
    (⟨S100000x16, .f32⟩ : BufTy).Contents (Elt F) :=
  Host.scatterAdd scatter_S100000x16_S6400000x1_S6400000x16_1_0_0_1
    (broadcastInDim S100000x16 ![] bcast_S_S100000x16 (constant (F := F) S_ .f32 0x00000000#32))
    (broadcastInDim S6400000x1 ![0] bcast_S6400000_S6400000x1_0 (edgeRow ![1, 0] slices_S2x6400000_S1x6400000_1_0 idx)) u

end Cert.KernelIdeal.Stages

end
-- ==== Proof.KernelArray.lean ====
/-
  What the kernel program's result holds after the run. The region's output is the radial-basis expansion of the
  displacement and centre arrays the region finds: grid point `t` writes rows `12800·t … 12800·t + 12799`, its
  displacement block being the same rows of the displacement array and its centre block the whole centre row, and the
  500 points' blocks cover the 6,400,000 rows. The host lines before the region make those two arrays from the
  arguments (the shared displacement and centre stages); the host lines after it take the segment sum of the output.
-/
import proofs.«152730_j74706661146715_1_alg».proof.Proof.Gen.KernelIdeal.Frame
import proofs.«152730_j74706661146715_1_alg».proof.Proof.Payload
import proofs.«152730_j74706661146715_1_alg».proof.Proof.KernelStages
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Stages Cert.Rbf

variable (m : (ℓ : Loc nD τ sig) → Buf (Elt Ideal) ℓ) (ρ : Dev nD → PrngReg)

theorem hz : (![0, 0] : Fin 2 → Nat) = fun _ => 0 := funext fun a => by fin_cases a <;> rfl

/-- The displacement array and the centre row as the region finds them. -/
abbrev dispAt (c : Dev nD) : S6400000x3.Idx → EReal := V m c main_v19
abbrev centresAt (c : Dev nD) : S1x16.Idx → EReal := V m c main_v0

/-- The expansion of those two: what the region's output array ends holding. -/
abbrev rows (c : Dev nD) : S6400000x16.Idx → EReal := expand (n := 6400000) (dispAt m c) (centresAt m c)

/-- The printed index maps over the grid: the displacement window moves with the output window down the rows, the centre
    window stays, and the output's row block is the point's number. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- WHAT POINT `t` WRITES BACK is block `t` of the expansion. -/
theorem flushed_eq (c : Dev nD) (t : Fin cfg0.N) :
    (dats m 0 c).flushed 2 t = ((cfg0.win 2).blk t).view.read (Elt Ideal) (rows m c) := by
  show (cfg0.win 2).cut (grid0.coords t) ((dats m 0 c).after 2 t) = _
  rw [after0_2]
  unfold out0_2
  rw [View.canon_unit_zero hz]
  simp only [View.ld_unit_zero (S := S12800x3) hz, View.ld_unit_zero (S := S1x16) hz]
  obtain ⟨e0, e1, e2, e3, e4, e5⟩ := idx_facts t
  funext j
  obtain ⟨p, q, rfl⟩ : ∃ (p : Fin 12800) (q : Fin 16), j = ix2 p q := ⟨j 0, j 1, eq_ix2 (n0 := 12800) (n1 := 16) j⟩
  show Gen.k0_pay1 (F := Ideal) (iblk m c 0 t) (iblk m c 1 t) (ix2 p q)
    = entry (n := 6400000) (dispAt m c) (centresAt m c) ((((cfg0.win 2).blk t).view.emb (ix2 p q)) 0) ((((cfg0.win 2).blk t).view.emb (ix2 p q)) 1)
  refine (Body.pay_apply (iblk m c 0 t) (iblk m c 1 t) p q).trans ?_
  refine entry_congr _ _ _ _ p _ q _ (fun k => ?_) ?_
  · unfold iblk
    rw [View.read_apply]
    show V m c main_v19 _ = V m c main_v19 _
    refine congrArg (V m c main_v19) ?_
    funext a
    apply Fin.ext
    match a with
    | ⟨0, _⟩ => show win0_0.index t (0 : Fin 2) * 12800 + 1 * p.val = win0_2.index t (0 : Fin 2) * 12800 + 1 * p.val; rw [e0]
    | ⟨1, _⟩ => show win0_0.index t (1 : Fin 2) * 3 + 1 * k.val = k.val; rw [e1]; omega
  · unfold iblk
    rw [View.read_apply]
    show V m c main_v0 _ = V m c main_v0 _
    refine congrArg (V m c main_v0) ?_
    funext a
    apply Fin.ext
    match a with
    | ⟨0, _⟩ => show win0_1.index t (0 : Fin 2) * 1 + 1 * 0 = 0; rw [e2]
    | ⟨1, _⟩ => show win0_1.index t (1 : Fin 2) * 16 + 1 * q.val = win0_2.index t (1 : Fin 2) * 16 + 1 * q.val; rw [e3, e4]

/-- An index of the output array is in point `t`'s block iff each coordinate is in the block's range on its axis. -/
theorem mem_blk (t : Fin cfg0.N) (i : S6400000x16.Idx) :
    i ∈ ((cfg0.win 2).blk t).view.set ↔ ∀ a : Fin 2, win0_2.index t a * S12800x16.size a ≤ (i a).val ∧ (i a).val < win0_2.index t a * S12800x16.size a + S12800x16.size a := by
  show i ∈ ((View.whole main_v20).slice (win0_2.rect t)).set ↔ _
  rw [View.set_slice_whole, Rect.mem_set_unit]
  exact Iff.rfl

/-- Every row is in some point's block: row `r` in point `r / 12800`'s. -/
theorem cover (i : S6400000x16.Idx) : ∃ t : Fin cfg0.N, (cfg0.win 2).flush t = true ∧ i ∈ ((cfg0.win 2).blk t).view.set := by
  have hi0 : (i 0).val < 6400000 := (i 0).isLt
  have hi1 : (i 1).val < 16 := (i 1).isLt
  have hN : cfg0.N = 500 := N_0
  have ht : (i 0).val / 12800 < cfg0.N := by rw [hN]; omega
  obtain ⟨e0, e1, e2, e3, e4, e5⟩ := idx_facts ⟨(i 0).val / 12800, ht⟩
  refine ⟨⟨(i 0).val / 12800, ht⟩, flush0_2 _, ?_⟩
  rw [mem_blk]
  intro a
  match a with
  | ⟨0, _⟩ =>
    show win0_2.index ⟨(i 0).val / 12800, ht⟩ (0 : Fin 2) * 12800 ≤ (i 0).val ∧ (i 0).val < win0_2.index ⟨(i 0).val / 12800, ht⟩ (0 : Fin 2) * 12800 + 12800
    rw [e5]
    show (i 0).val / 12800 * 12800 ≤ (i 0).val ∧ (i 0).val < (i 0).val / 12800 * 12800 + 12800
    omega
  | ⟨1, _⟩ =>
    show win0_2.index ⟨(i 0).val / 12800, ht⟩ (1 : Fin 2) * 16 ≤ (i 1).val ∧ (i 1).val < win0_2.index ⟨(i 0).val / 12800, ht⟩ (1 : Fin 2) * 16 + 16
    rw [e4]
    omega

/-- THE OUTPUT ARRAY after the run is the expansion. -/
theorem final (c : Dev nD) : (dats m 0 c).arrAt 2 cfg0.N = rows m c :=
  (dats m 0 c).arrAt_eq_of_cover 2 (rows m c) (fun t _ => flushed_eq m c t) cover

/-- The host lines before the region leave the shared displacement stage of the arguments in the window's array, -/
theorem dispAt_eq (c : Dev nD) :
    dispAt m c = disp (F := Ideal) (m ((c : Thread nD τ).loc main_arg0)) (m ((c : Thread nD τ).loc main_arg1)) := by
  show StableHlo.after hostOps0 (fun b => m (c, b)) (Proc.devRef .tc main_v19) = _
  after_results
  all_goals rfl

/-- and the centre row in the other. -/
theorem centresAt_eq (c : Dev nD) : centresAt m c = centres (F := Ideal) := by
  show StableHlo.after hostOps0 (fun b => m (c, b)) (Proc.devRef .tc main_v0) = _
  after_results
  all_goals rfl

/-- THE RESULT: the host lines after the region take the segment sum of the output array by the edges' second endpoints. -/
theorem result_eq (c : Dev nD) :
    Pipeline.afterTail₀ cfgs (dats m) 0 (V0 m) [hostOps1] c main_v25
      = segSum (F := Ideal) (m ((c : Thread nD τ).loc main_arg1)) (rows m c) := by
  unfold Pipeline.afterTail₀
  show StableHlo.after hostOps1 _ (Proc.devRef .tc main_v25) = _
  after_results
  have h20 : Pipeline.withArrays (cfgs 0).spec c (V0 m c) (fun w => (dats m 0 c).arrAt w (cfgs 0).N) (Proc.devRef .tc main_v20)
      = rows m c :=
    (Pipeline.withArrays_arr spec0 launch0.win.arr_inj c _ _ 2).trans (final m c)
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [h20, h1]
  rfl

/-- The expansion the region writes, in terms of the arguments. -/
theorem rows_eq (c : Dev nD) :
    rows m c = expand (n := 6400000)
      (disp (F := Ideal) (m ((c : Thread nD τ).loc main_arg0)) (m ((c : Thread nD τ).loc main_arg1))) (centres (F := Ideal)) := by
  show expand (n := 6400000) (dispAt m c) (centresAt m c) = _
  rw [dispAt_eq, centresAt_eq]

/-- THE RUN, READ: every weakly fair execution of the kernel program terminates with the result at the segment sum of
    the expansion of the arguments' displacement and centre stages, and the arguments unchanged. -/
theorem run : θ_run defs (onTc (τ := τ) (main (F := Ideal))) ⟨m, fun _ => 0, ρ⟩ fun r => ∀ c : Dev nD,
      r.2.mem ((c.tc : Thread nD τ).loc main_v25)
          = segSum (F := Ideal) (m ((c.tc : Thread nD τ).loc main_arg1))
              (expand (n := 6400000)
                (disp (F := Ideal) (m ((c.tc : Thread nD τ).loc main_arg0)) (m ((c.tc : Thread nD τ).loc main_arg1))) (centres (F := Ideal)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(((h c).2 main_v25 (Pipeline.mem_restRefs_of main_v25 (by decide) (by decide))).trans (result_eq m c)).trans
          (congrArg (segSum (F := Ideal) (m ((c.tc : Thread nD τ).loc main_arg1))) (rows_eq m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Arr

end
-- ==== Proof.RefStages.lean ====
/-
  The host stages the two programs share, as named functions of the argument arrays: the row of sixteen basis centres;
  one row of the edge list with negative entries wrapped by the table's length, as a column of gather indices; the
  displacement of every edge (the difference of the two gathered endpoint positions); and the closing scatter-add of
  the per-edge rows into a zero table by the edge's second endpoint.
-/
import proofs.«152730_j74706661146715_1_alg».proof.Proof.Gen.ReferenceIdeal

noncomputable section

namespace Cert.ReferenceIdeal.Stages

open Cert.ReferenceIdeal Cert.ReferenceIdeal.Facts₀ Idealize.ShloMosaic

variable {F : FTy → Type} [FloatOps F]

/-- The sixteen basis centres, a literal table, as a `1 × 16` row. -/
def centres : (⟨S1x16, .f32⟩ : BufTy).Contents (Elt F) :=
  broadcastInDim S1x16 ![1] bcast_S16_S1x16_1 (fun i => FloatOps.ofBits .f32 (lit0 (S16.rowMajor i)))

/-- One row of the `2 × E` edge list as a vector of length `E`. -/
def edgeRow (off : Fin 2 → Nat) (hs : S2x6400000.Slices off S1x6400000) (idx : (⟨S2x6400000, .i32⟩ : BufTy).Contents (Elt F)) :
    (⟨S6400000, .i32⟩ : BufTy).Contents (Elt F) :=
  shapeCast S6400000 (extractStridedSlice S1x6400000 off idx hs) shapeCasts_S1x6400000_S6400000

/-- That row with every negative entry moved up by the table's length (Python's indexing from the end), as the
    `E × 1` column of start indices the gather takes. -/
def endpoints (off : Fin 2 → Nat) (hs : S2x6400000.Slices off S1x6400000) (idx : (⟨S2x6400000, .i32⟩ : BufTy).Contents (Elt F)) :
    (⟨S6400000x1, .i32⟩ : BufTy).Contents (Elt F) :=
  broadcastInDim S6400000x1 ![0] bcast_S6400000_S6400000x1_0
    (select (cmpi .slt (edgeRow off hs idx) (broadcastInDim S6400000 ![] bcast_S_S6400000 (constantI S_ 32 0#32)))
      (addi (edgeRow off hs idx) (broadcastInDim S6400000 ![] bcast_S_S6400000 (constantI S_ 32 100000#32)))
      (edgeRow off hs idx))

/-- The displacement of every edge: first endpoint's position minus second endpoint's, three coordinates a row. -/
def disp (R : (⟨S100000x3, .f32⟩ : BufTy).Contents (Elt F)) (idx : (⟨S2x6400000, .i32⟩ : BufTy).Contents (Elt F)) :
    (⟨S6400000x3, .f32⟩ : BufTy).Contents (Elt F) :=
  subf (Host.gather gather_S100000x3_S6400000x1_S6400000x3_1_0_n_n_0_1_13 R (endpoints ![0, 0] slices_S2x6400000_S1x6400000_0_0 idx))
    (Host.gather gather_S100000x3_S6400000x1_S6400000x3_1_0_n_n_0_1_13 R (endpoints ![1, 0] slices_S2x6400000_S1x6400000_1_0 idx))

/-- The closing segment sum: the per-edge rows `u` added into a zero `100000 × 16` table at the row the edge's
    second endpoint names. -/
def segSum (idx : (⟨S2x6400000, .i32⟩ : BufTy).Contents (Elt F)) (u : (⟨S6400000x16, .f32⟩ : BufTy).Contents (Elt F)) :
    (⟨S100000x16, .f32⟩ : BufTy).Contents (Elt F) :=
  Host.scatterAdd scatter_S100000x16_S6400000x1_S6400000x16_1_0_0_1
    (broadcastInDim S100000x16 ![] bcast_S_S100000x16 (constant (F := F) S_ .f32 0x00000000#32))
    (broadcastInDim S6400000x1 ![0] bcast_S6400000_S6400000x1_0 (edgeRow ![1, 0] slices_S2x6400000_S1x6400000_1_0 idx)) u

end Cert.ReferenceIdeal.Stages

end
-- ==== Proof.RefOps.lean ====
import proofs.«152730_j74706661146715_1_alg».proof.Proof.Gen.ReferenceIdeal
import Idealize.ShloMosaic.Lib.StableHlo.Run

noncomputable section

namespace Cert.ReferenceIdeal.HostRun

open Cert.ReferenceIdeal Cert.ReferenceIdeal.Facts₀ Idealize.ShloMosaic Idealize.ShloMosaic.TcCoe Idealize.SL.Sem

variable {F : FTy → Type} [FloatOps F]

/-- @main's 44 operations, in order. -/
abbrev ops : List (HloOp τ sig (Elt F)) :=
  [ StableHlo.nullary main_cst (fun i => FloatOps.ofBits .f32 (lit0 (S16.rowMajor i))),
    StableHlo.unary main_cst main_v0 (broadcastInDim S1x16 ![1] bcast_S16_S1x16_1 : (⟨S16, .f32⟩ : BufTy).Contents (Elt F) → (⟨S1x16, .f32⟩ : BufTy).Contents (Elt F)),
    StableHlo.unary main_arg1 main_v1 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v1 main_v2 rfl shapeCasts_S1x6400000_S6400000,
    StableHlo.nullary main_c (constantI S_ 32 0#32),
    StableHlo.unary main_c main_v3 (broadcastInDim S6400000 ![] bcast_S_S6400000 : (⟨S_, .i32⟩ : BufTy).Contents (Elt F) → (⟨S6400000, .i32⟩ : BufTy).Contents (Elt F)),
    StableHlo.binary main_v2 main_v3 main_v4 (cmpi .slt : (⟨S6400000, .i32⟩ : BufTy).Contents (Elt F) → (⟨S6400000, .i32⟩ : BufTy).Contents (Elt F) → (⟨S6400000, .i1⟩ : BufTy).Contents (Elt F)),
    StableHlo.nullary main_c_0 (constantI S_ 32 100000#32),
    StableHlo.unary main_c_0 main_v5 (broadcastInDim S6400000 ![] bcast_S_S6400000 : (⟨S_, .i32⟩ : BufTy).Contents (Elt F) → (⟨S6400000, .i32⟩ : BufTy).Contents (Elt F)),
    StableHlo.binary main_v2 main_v5 main_v6 (addi : (⟨S6400000, .i32⟩ : BufTy).Contents (Elt F) → (⟨S6400000, .i32⟩ : BufTy).Contents (Elt F) → (⟨S6400000, .i32⟩ : BufTy).Contents (Elt F)),
    StableHlo.ternary main_v4 main_v6 main_v2 main_v7 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v7 main_v8 (broadcastInDim S6400000x1 ![0] bcast_S6400000_S6400000x1_0 : (⟨S6400000, .i32⟩ : BufTy).Contents (Elt F) → (⟨S6400000x1, .i32⟩ : BufTy).Contents (Elt F)),
    StableHlo.binary main_arg0 main_v8 main_v9 ((fun x i => Host.gather gather_S100000x3_S6400000x1_S6400000x3_1_0_n_n_0_1_13 x i) : (⟨S100000x3, .f32⟩ : BufTy).Contents (Elt F) → (⟨S6400000x1, .i32⟩ : BufTy).Contents (Elt F) → (⟨S6400000x3, .f32⟩ : BufTy).Contents (Elt F)),
    StableHlo.unary main_arg1 main_v10 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v10 main_v11 rfl shapeCasts_S1x6400000_S6400000,
    StableHlo.nullary main_c_1 (constantI S_ 32 0#32),
    StableHlo.unary main_c_1 main_v12 (broadcastInDim S6400000 ![] bcast_S_S6400000 : (⟨S_, .i32⟩ : BufTy).Contents (Elt F) → (⟨S6400000, .i32⟩ : BufTy).Contents (Elt F)),
    StableHlo.binary main_v11 main_v12 main_v13 (cmpi .slt : (⟨S6400000, .i32⟩ : BufTy).Contents (Elt F) → (⟨S6400000, .i32⟩ : BufTy).Contents (Elt F) → (⟨S6400000, .i1⟩ : BufTy).Contents (Elt F)),
    StableHlo.nullary main_c_2 (constantI S_ 32 100000#32),
    StableHlo.unary main_c_2 main_v14 (broadcastInDim S6400000 ![] bcast_S_S6400000 : (⟨S_, .i32⟩ : BufTy).Contents (Elt F) → (⟨S6400000, .i32⟩ : BufTy).Contents (Elt F)),
    StableHlo.binary main_v11 main_v14 main_v15 (addi : (⟨S6400000, .i32⟩ : BufTy).Contents (Elt F) → (⟨S6400000, .i32⟩ : BufTy).Contents (Elt F) → (⟨S6400000, .i32⟩ : BufTy).Contents (Elt F)),
    StableHlo.ternary main_v13 main_v15 main_v11 main_v16 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v16 main_v17 (broadcastInDim S6400000x1 ![0] bcast_S6400000_S6400000x1_0 : (⟨S6400000, .i32⟩ : BufTy).Contents (Elt F) → (⟨S6400000x1, .i32⟩ : BufTy).Contents (Elt F)),
    StableHlo.binary main_arg0 main_v17 main_v18 ((fun x i => Host.gather gather_S100000x3_S6400000x1_S6400000x3_1_0_n_n_0_1_13 x i) : (⟨S100000x3, .f32⟩ : BufTy).Contents (Elt F) → (⟨S6400000x1, .i32⟩ : BufTy).Contents (Elt F) → (⟨S6400000x3, .f32⟩ : BufTy).Contents (Elt F)),
    StableHlo.binary main_v9 main_v18 main_v19 (subf : (⟨S6400000x3, .f32⟩ : BufTy).Contents (Elt F) → (⟨S6400000x3, .f32⟩ : BufTy).Contents (Elt F) → (⟨S6400000x3, .f32⟩ : BufTy).Contents (Elt F)),
    StableHlo.binary main_v19 main_v19 main_v20 (mulf : (⟨S6400000x3, .f32⟩ : BufTy).Contents (Elt F) → (⟨S6400000x3, .f32⟩ : BufTy).Contents (Elt F) → (⟨S6400000x3, .f32⟩ : BufTy).Contents (Elt F)),
    StableHlo.nullary main_cst_3 (constant S_ .f32 0x00000000#32),
    StableHlo.binary main_v20 main_cst_3 main_v21 ((fun x v => Host.reduceAdd x v reducesTo_S6400000x3_S6400000_d1 h_S_) : (⟨S6400000x3, .f32⟩ : BufTy).Contents (Elt F) → (⟨S_, .f32⟩ : BufTy).Contents (Elt F) → (⟨S6400000, .f32⟩ : BufTy).Contents (Elt F)),
    StableHlo.unary main_v21 main_v22 (Host.sqrt : (⟨S6400000, .f32⟩ : BufTy).Contents (Elt F) → (⟨S6400000, .f32⟩ : BufTy).Contents (Elt F)),
    StableHlo.unary main_v22 main_v23 (broadcastInDim S6400000x1 ![0] bcast_S6400000_S6400000x1_0 : (⟨S6400000, .f32⟩ : BufTy).Contents (Elt F) → (⟨S6400000x1, .f32⟩ : BufTy).Contents (Elt F)),
    StableHlo.unary main_v0 main_v24 (broadcastInDim S6400000x16 ![0, 1] bcast_S1x16_S6400000x16_0_1 : (⟨S1x16, .f32⟩ : BufTy).Contents (Elt F) → (⟨S6400000x16, .f32⟩ : BufTy).Contents (Elt F)),
    StableHlo.unary main_v23 main_v25 (broadcastInDim S6400000x16 ![0, 1] bcast_S6400000x1_S6400000x16_0_1 : (⟨S6400000x1, .f32⟩ : BufTy).Contents (Elt F) → (⟨S6400000x16, .f32⟩ : BufTy).Contents (Elt F)),
    StableHlo.binary main_v24 main_v25 main_v26 (subf : (⟨S6400000x16, .f32⟩ : BufTy).Contents (Elt F) → (⟨S6400000x16, .f32⟩ : BufTy).Contents (Elt F) → (⟨S6400000x16, .f32⟩ : BufTy).Contents (Elt F)),
    StableHlo.binary main_v26 main_v26 main_v27 (mulf : (⟨S6400000x16, .f32⟩ : BufTy).Contents (Elt F) → (⟨S6400000x16, .f32⟩ : BufTy).Contents (Elt F) → (⟨S6400000x16, .f32⟩ : BufTy).Contents (Elt F)),
    StableHlo.nullary main_cst_4 (constant S_ .f32 0xC0E38E39#32),
    StableHlo.unary main_cst_4 main_v28 (broadcastInDim S6400000x16 ![] bcast_S_S6400000x16 : (⟨S_, .f32⟩ : BufTy).Contents (Elt F) → (⟨S6400000x16, .f32⟩ : BufTy).Contents (Elt F)),
    StableHlo.binary main_v28 main_v27 main_v29 (mulf : (⟨S6400000x16, .f32⟩ : BufTy).Contents (Elt F) → (⟨S6400000x16, .f32⟩ : BufTy).Contents (Elt F) → (⟨S6400000x16, .f32⟩ : BufTy).Contents (Elt F)),
    StableHlo.unary main_v29 main_v30 (Host.exp : (⟨S6400000x16, .f32⟩ : BufTy).Contents (Elt F) → (⟨S6400000x16, .f32⟩ : BufTy).Contents (Elt F)),
    StableHlo.unary main_arg1 main_v31 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v31 main_v32 rfl shapeCasts_S1x6400000_S6400000,
    StableHlo.nullary main_cst_5 (constant S_ .f32 0x00000000#32),
    StableHlo.unary main_cst_5 main_v33 (broadcastInDim S100000x16 ![] bcast_S_S100000x16 : (⟨S_, .f32⟩ : BufTy).Contents (Elt F) → (⟨S100000x16, .f32⟩ : BufTy).Contents (Elt F)),
    StableHlo.unary main_v32 main_v34 (broadcastInDim S6400000x1 ![0] bcast_S6400000_S6400000x1_0 : (⟨S6400000, .i32⟩ : BufTy).Contents (Elt F) → (⟨S6400000x1, .i32⟩ : BufTy).Contents (Elt F)),
    StableHlo.ternary main_v33 main_v34 main_v30 main_v35 ((fun x i u => Host.scatterAdd scatter_S100000x16_S6400000x1_S6400000x16_1_0_0_1 x i u) : (⟨S100000x16, .f32⟩ : BufTy).Contents (Elt F) → (⟨S6400000x1, .i32⟩ : BufTy).Contents (Elt F) → (⟨S6400000x16, .f32⟩ : BufTy).Contents (Elt F) → (⟨S100000x16, .f32⟩ : BufTy).Contents (Elt F)) ]

/-- Each touches TensorCore references only. -/
theorem ops_sub : (ops : List (HloOp τ sig (Elt F))).Forall fun op => op.bufs ⊆ StableHlo.tcRefs τ sig :=
  ⟨StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.nullary_bufs_sub .., StableHlo.unary_bufs_sub .., StableHlo.unary_bufs_sub .., StableHlo.ternary_bufs_sub ..⟩

end Cert.ReferenceIdeal.HostRun

end
-- ==== Proof.RefRun.lean ====
/-
  The reference program's run, read back: @main is a straight line of 44 host operations, so every weakly fair
  execution ends with each buffer at the fold of the operations' results over the launch contents. Its one result is
  then the segment sum, by each edge's second endpoint, of the per-edge Gaussian rows computed the reference's way —
  the gap squared first, the scale applied to the square — from the shared displacement and centre stages.
-/
import proofs.«152730_j74706661146715_1_alg».proof.Proof.RefStages
import proofs.«152730_j74706661146715_1_alg».proof.Proof.RefOps
import Idealize.ShloMosaic.Lib.StableHlo.Run

noncomputable section

namespace Cert.ReferenceIdeal.HostRun

open Cert.ReferenceIdeal Cert.ReferenceIdeal.Facts₀ Cert.ReferenceIdeal.Stages
open Idealize.ShloMosaic Idealize.ShloMosaic.TcCoe Idealize.SL.Sem

variable {F : FTy → Type} [FloatOps F]

theorem main_eq (c : Dev nD) : main (F := F) c = StableHlo.seq ops := rfl
theorem scopedRefs_eq : (Finset.univ.filter fun b : Ref sig .tc => b.isScoped) = ∅ := by decide
theorem scopedSems_eq : (Finset.univ.filter fun sm : SemLoc sig => sm.isScoped .tc) = ∅ := by decide
/-- The per-edge rows as the reference computes them from the displacements `D` and the centres `s`: the row's
    length by a host sum of squares and a square root, the gap to each centre, its square, the scale, the exponential. -/
def gaussRows (D : (⟨S6400000x3, .f32⟩ : BufTy).Contents (Elt F)) (s : (⟨S1x16, .f32⟩ : BufTy).Contents (Elt F)) :
    (⟨S6400000x16, .f32⟩ : BufTy).Contents (Elt F) :=
  Host.exp (mulf (broadcastInDim S6400000x16 ![] bcast_S_S6400000x16 (constant (F := F) S_ .f32 0xC0E38E39#32))
    (mulf
      (subf (broadcastInDim S6400000x16 ![0, 1] bcast_S1x16_S6400000x16_0_1 s)
        (broadcastInDim S6400000x16 ![0, 1] bcast_S6400000x1_S6400000x16_0_1
          (broadcastInDim S6400000x1 ![0] bcast_S6400000_S6400000x1_0
            (Host.sqrt (Host.reduceAdd (mulf D D) (constant (F := F) S_ .f32 0x00000000#32) reducesTo_S6400000x3_S6400000_d1 h_S_)))))
      (subf (broadcastInDim S6400000x16 ![0, 1] bcast_S1x16_S6400000x16_0_1 s)
        (broadcastInDim S6400000x16 ![0, 1] bcast_S6400000x1_S6400000x16_0_1
          (broadcastInDim S6400000x1 ![0] bcast_S6400000_S6400000x1_0
            (Host.sqrt (Host.reduceAdd (mulf D D) (constant (F := F) S_ .f32 0x00000000#32) reducesTo_S6400000x3_S6400000_d1 h_S_)))))))

/-- On every device, from any memory with zero counters: every weakly fair execution of @main terminates with the
    result at the segment sum of the reference's per-edge rows, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = segSum (m ((c.tc : Thread nD τ).loc main_arg1))
              (gaussRows (disp (m ((c.tc : Thread nD τ).loc main_arg0)) (m ((c.tc : Thread nD τ).loc main_arg1))) centres)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (by after_results_simp; all_goals rfl),
      (h c main_arg0).trans (by after_results),
      (h c main_arg1).trans (by after_results)⟩)
    (StableHlo.run_seq scopedRefs_eq scopedSems_eq defs main (fun _ => ops) main_eq (fun _ => ops_sub) m ρ)

end Cert.ReferenceIdeal.HostRun

end
-- ==== Proof.RefValue.lean ====
/-
  The reference's per-edge rows are the radial-basis expansion, entry by entry: at edge `e` and centre `b` the
  broadcasts read the centre row at `b` and the length column at `e`, the host sum of squares from a zero initial value
  is the three-term sum of squares of row `e`, and scaling the squared gap is scaling the gap and multiplying by it once
  more (associativity).
-/
import proofs.«152730_j74706661146715_1_alg».proof.Proof.RefRun
import proofs.«152730_j74706661146715_1_alg».proof.Proof.Rbf
import Idealize.ShloMosaic.Lib.Pipeline.Value
import Idealize.ShloMosaic.PureOps.Ideal.Laws

noncomputable section

namespace Cert.ReferenceIdeal.RefValue

open Cert.ReferenceIdeal Cert.ReferenceIdeal.Facts₀ Cert.ReferenceIdeal.HostRun Cert.Rbf
open Idealize.ShloMosaic Idealize.ShloMosaic.ValueIdx

/-- The centre row broadcast over the edges reads centre `b` at every edge. -/
theorem centres_bcast_apply (s : S1x16.Idx → EReal) (h : S1x16.BroadcastsInDim S6400000x16 (![0, 1] : Fin 2 → Fin S6400000x16.rank))
    (e : Fin 6400000) (b : Fin 16) :
    broadcastInDim S6400000x16 ![0, 1] h s (ix2 e b) = s (ix2 (0 : Fin 1) b) := by
  refine broadcastInDim_apply _ h s (ix2 e b) (ix2 (0 : Fin 1) b) fun a => ?_
  match a with
  | ⟨0, _⟩ => rfl
  | ⟨1, _⟩ => rfl

/-- A per-edge column broadcast over the centres reads edge `e`'s entry at every centre. -/
theorem column_bcast_apply (v : S6400000x1.Idx → EReal) (h : S6400000x1.BroadcastsInDim S6400000x16 (![0, 1] : Fin 2 → Fin S6400000x16.rank))
    (e : Fin 6400000) (b : Fin 16) :
    broadcastInDim S6400000x16 ![0, 1] h v (ix2 e b) = v (ix2 e (0 : Fin 1)) := by
  refine broadcastInDim_apply _ h v (ix2 e b) (ix2 e (0 : Fin 1)) fun a => ?_
  match a with
  | ⟨0, _⟩ => rfl
  | ⟨1, _⟩ => rfl

/-- A per-edge vector as a column holds edge `e`'s entry in row `e`. -/
theorem keepdim_bcast_apply (v : S6400000.Idx → EReal) (h : S6400000.BroadcastsInDim S6400000x1 (![0] : Fin 1 → Fin S6400000x1.rank))
    (e : Fin 6400000) (u : Fin 1) :
    broadcastInDim S6400000x1 ![0] h v (ix2 e u) = v (ix1 e) := by
  refine broadcastInDim_apply _ h v (ix2 e u) (ix1 e) fun a => ?_
  match a with
  | ⟨0, _⟩ => rfl

/-- The host sum over the three coordinates from a zero initial value, at edge `e`: the three-term sum. -/
theorem host_rowsum_apply (x : FVec Ideal S6400000x3 .f32) (e : Fin 6400000) :
    Host.reduceAdd (F := Ideal) x (constant (F := Ideal) S_ .f32 0x00000000#32) reducesTo_S6400000x3_S6400000_d1 h_S_ (ix1 e)
      = ∑ k : Fin 3, x (ix2 e k) := by
  have hr : S6400000x3.Reduces [1] S6400000 := by decide
  show Ideal.hostReduceAdd reducesTo_S6400000x3_S6400000_d1 x (Ideal.ofBits .f32 0x00000000#32) (ix1 e) = _
  rw [Ideal.hostReduceAdd_single reducesTo_S6400000x3_S6400000_d1 hr, Ideal.ofBits_zero_f32, zero_add]
  refine Finset.sum_congr rfl fun k _ => congrArg x ?_
  funext a
  match a with
  | ⟨0, _⟩ => rfl
  | ⟨1, _⟩ => rfl

/-- A scalar broadcast over the whole table reads the scalar everywhere. -/
theorem scalar_bcast_apply (v : S_.Idx → EReal) (h : S_.BroadcastsInDim S6400000x16 (![] : Fin 0 → Fin S6400000x16.rank))
    (i : S6400000x16.Idx) : broadcastInDim S6400000x16 ![] h v i = v ix0 :=
  broadcastInDim_apply _ h v i ix0 fun a => a.elim0

/-- The host's square root and exponential act entry by entry, as the extended-real functions. -/
theorem host_sqrt_apply {S : Shape} (x : FVec Ideal S .f32) (i : S.Idx) : Host.sqrt x i = Ideal.sqrt (x i) := rfl
theorem host_exp_apply {S : Shape} (x : FVec Ideal S .f32) (i : S.Idx) : Host.exp x i = Ideal.exp (x i) := rfl

/-- THE REFERENCE'S ROWS ARE THE EXPANSION. -/
theorem gaussRows_eq (D : FVec Ideal S6400000x3 .f32) (s : FVec Ideal S1x16 .f32) :
    gaussRows (F := Ideal) D s = expand (n := 6400000) D s := by
  funext i
  obtain ⟨e, b, rfl⟩ : ∃ (e : Fin 6400000) (b : Fin 16), i = ix2 e b := ⟨i 0, i 1, eq_ix2 i⟩
  rw [expand_ix2, ← entry_eq_square_first]
  unfold gaussRows
  have hg : subf (broadcastInDim S6400000x16 ![0, 1] bcast_S1x16_S6400000x16_0_1 s)
        (broadcastInDim S6400000x16 ![0, 1] bcast_S6400000x1_S6400000x16_0_1
          (broadcastInDim S6400000x1 ![0] bcast_S6400000_S6400000x1_0
            (Host.sqrt (Host.reduceAdd (F := Ideal) (mulf D D) (constant (F := Ideal) S_ .f32 0x00000000#32) reducesTo_S6400000x3_S6400000_d1 h_S_))))
        (ix2 e b) = gap D s e b := by
    rw [subf_apply, centres_bcast_apply, column_bcast_apply, keepdim_bcast_apply, host_sqrt_apply, host_rowsum_apply]
    unfold gap rowSq
    simp only [mulf_apply]
  rw [host_exp_apply, mulf_apply, mulf_apply, scalar_bcast_apply, constant_apply, hg]

end Cert.ReferenceIdeal.RefValue

end
-- ==== Proof.lean ====
/-
  Both programs gather the two endpoint positions of every edge, subtract them, expand the length of the difference
  in sixteen Gaussian radial basis functions, and add each edge's sixteen values into the row of its second endpoint.
  They share the gather, the centres and the closing segment sum word for word; between them the kernel program
  expands 12800 edges a grid point in a pipelined region, and the reference expands all edges by host operations.
  At the extended reals the two expansions are one function of the displacements and the centres: the kernel's lane
  sum of three squares and the host's sum from a zero initial value are the same three-term sum, square root and
  exponential are the same functions on either side, and the kernel's `(c·g)·g` is the reference's `c·(g·g)` by
  associativity of the product, which needs no finiteness. So the results agree entry by entry.
  The kernel programs' frames are the generated ones; the reference's frame is its run with the result dropped;
  the idealization rewrote nothing.
-/
import proofs.«152730_j74706661146715_1_alg».proof.Defs
import proofs.«152730_j74706661146715_1_alg».proof.Proof.Gen.Kernel
import proofs.«152730_j74706661146715_1_alg».proof.Proof.Gen.Kernel.Frame
import proofs.«152730_j74706661146715_1_alg».proof.Proof.Gen.KernelIdeal
import proofs.«152730_j74706661146715_1_alg».proof.Proof.Gen.KernelIdeal.Frame
import proofs.«152730_j74706661146715_1_alg».proof.Proof.Gen.ReferenceIdeal
import proofs.«152730_j74706661146715_1_alg».proof.Proof.Gen.Pre_finite_inputs
import proofs.«152730_j74706661146715_1_alg».proof.Proof.KernelArray
import proofs.«152730_j74706661146715_1_alg».proof.Proof.RefValue
import Idealize.ShloMosaic.Adequacy
import Idealize.ShloMosaic.Init

noncomputable section

open Idealize.ShloMosaic Idealize.ShloMosaic.TcCoe Idealize.SL.Sem

namespace Cert.Proof.Shared

/-- The shared stages are the same functions in the two programs' vocabularies. -/
theorem centres_eq : Cert.ReferenceIdeal.Stages.centres (F := Ideal) = Cert.KernelIdeal.Stages.centres (F := Ideal) := rfl

theorem disp_eq (R : Cert.KernelIdeal.S100000x3.Idx → EReal) (idx : Cert.KernelIdeal.S2x6400000.Idx → BitVec 32) :
    Cert.ReferenceIdeal.Stages.disp (F := Ideal) R idx = Cert.KernelIdeal.Stages.disp (F := Ideal) R idx := rfl

theorem segSum_eq (idx : Cert.KernelIdeal.S2x6400000.Idx → BitVec 32) (u : Cert.KernelIdeal.S6400000x16.Idx → EReal) :
    Cert.ReferenceIdeal.Stages.segSum (F := Ideal) idx u = Cert.KernelIdeal.Stages.segSum (F := Ideal) idx u := rfl

end Cert.Proof.Shared

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The two results are the segment sum of one expansion of one displacement table and one centre row. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2, Cert.ReferenceIdeal.RefValue.gaussRows_eq, Shared.segSum_eq, Shared.disp_eq, Shared.centres_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
